-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x64 : Shape := ⟨2, ![2048, 64]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_

variable [Facts]

def fn {F : FTy → Type} [FloatOps F] (main_arg0 : FVec F S8192x2048 .f32) (main_arg1 : FVec F S2048x64 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S8192x2048 : Shape := ⟨2, ![8192, 2048]⟩
abbrev S2048x64 : Shape := ⟨2, ![2048, 64]⟩
abbrev S8192x1 : Shape := ⟨2, ![8192, 1]⟩
abbrev S1024x2048 : Shape := ⟨2, ![1024, 2048]⟩
abbrev S1024x1 : Shape := ⟨2, ![1024, 1]⟩
abbrev S1024x64 : Shape := ⟨2, ![1024, 64]⟩
abbrev S1024 : Shape := ⟨1, ![1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x64, .f32⟩
  | .hbm, ⟨2, _⟩ => ⟨S8192x1, .f32⟩
  | .local _ .vmem, ⟨0, _⟩ => ⟨S1024x2048, .f32⟩
  | .local _ .vmem, ⟨1, _⟩ => ⟨S1024x2048, .f32⟩
  | .local _ .vmem, ⟨2, _⟩ => ⟨S2048x64, .f32⟩
  | .local _ .vmem, ⟨3, _⟩ => ⟨S1024x1, .f32⟩
  | .local _ .vmem, ⟨4, _⟩ => ⟨S1024x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x2048_S1024x2048_0_0 : ∀ a, (![0, 0] : Fin 2 → Nat) a + S1024x2048.size a ≤ S1024x2048.size a
  h_S1024x2048 : 0 < S1024x2048.numel
  inb_S2048x64_S2048x64_0_0 : ∀ a, (![0, 0] : Fin 2 → Nat) a + S2048x64.size a ≤ S2048x64.size a
  h_S2048x64 : 0 < S2048x64.numel
  reduces_S1024x64_S1024 : S1024x64.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .f32 = 32 ∨ (Rect.block (s := S2048x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x64 : Shape := ⟨2, ![2048, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x64, .f32⟩
  | .hbm, ⟨2, _⟩ => ⟨S8192x64, .f32⟩
  | .hbm, ⟨3, _⟩ => ⟨S8192x2048, .f32⟩
  | .hbm, ⟨4, _⟩ => ⟨S2048x64, .f32⟩
  | .hbm, ⟨5, _⟩ => ⟨S8192x64, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  dot_S8192x2048_S2048x64_S8192x64_1_0_0_1_n_n_wf : DotDims.WF S8192x2048 S2048x64 S8192x64 [1] [0] [0] [1] [] []

variable [Facts₀]

def dot_S8192x2048_S2048x64_S8192x64_1_0_0_1_n_n : DotDims S8192x2048 S2048x64 S8192x64 where
  lhsContracting := [1]
  rhsContracting := [0]
  lhsNonContracting := [0]
  rhsNonContracting := [1]
  lhsBatch := []
  rhsBatch := []
  wf := dot_S8192x2048_S2048x64_S8192x64_1_0_0_1_n_n_wf

class Facts : Prop extends Facts₀ where

variable [Facts]
-- ==== Proof.Pairwise.lean ====
/-
  The second-order interaction of a factorization machine, as one function of its two arrays.

  For a row x_r of the [R, 2048] array x and the [2048, 64] array v, the value is
      h * sum over the 64 columns q of ( (sum_k x(r,k) * v(k,q))^2 - sum_k x(r,k)^2 * v(k,q)^2 ),
  where h is the number the float word 0x3F000000 denotes (one half; it is never evaluated here, the same word
  stands on both sides of every equation).  Expanding the square shows this to be the sum over pairs k < k' of
  (v_k . v_k') x(r,k) x(r,k'), which is why it is called the pairwise term; nothing below needs that expansion.

  The value of row r reads only row r of x.  So if a block of rows of x is cut out and its rows renumbered, the value
  of a row of the block is the value of the row of x it came from: `rowValue_congr`.
-/
import Idealize.ShloMosaic.PureOps.Ideal
import Idealize.ShloMosaic.Lib.ValueIdx

noncomputable section

namespace Pairwise

open Idealize.ShloMosaic Idealize.ShloMosaic.ValueIdx

/-- The inner product of row `r` of `x` with column `q` of `v`. -/
def dotRow {R : Nat} (x : (⟨2, ![R, 2048]⟩ : Shape).Idx → EReal) (v : (⟨2, ![2048, 64]⟩ : Shape).Idx → EReal)
    (r : Fin R) (q : Fin 64) : EReal :=
  ∑ k : Fin 2048, x (ix2 r k) * v (ix2 k q)

/-- The same inner product of the entrywise squares. -/
def dotRowSq {R : Nat} (x : (⟨2, ![R, 2048]⟩ : Shape).Idx → EReal) (v : (⟨2, ![2048, 64]⟩ : Shape).Idx → EReal)
    (r : Fin R) (q : Fin 64) : EReal :=
  ∑ k : Fin 2048, (x (ix2 r k) * x (ix2 r k)) * (v (ix2 k q) * v (ix2 k q))

/-- The pairwise term of row `r`: the half-word times the sum over the columns of (inner product squared minus the inner
    product of the squares). -/
def rowValue {R : Nat} (x : (⟨2, ![R, 2048]⟩ : Shape).Idx → EReal) (v : (⟨2, ![2048, 64]⟩ : Shape).Idx → EReal)
    (r : Fin R) : EReal :=
  Ideal.ofBits .f32 0x3F000000#32 * ∑ q : Fin 64, (dotRow x v r q * dotRow x v r q - dotRowSq x v r q)

/-- The value of a row depends only on that row of `x` (and on all of `v`): two arrays, of any numbers of rows, that
    agree along a row of each have the same value there. -/
theorem rowValue_congr {R R' : Nat} (x : (⟨2, ![R, 2048]⟩ : Shape).Idx → EReal) (x' : (⟨2, ![R', 2048]⟩ : Shape).Idx → EReal)
    (v v' : (⟨2, ![2048, 64]⟩ : Shape).Idx → EReal) (r : Fin R) (r' : Fin R')
    (hx : ∀ k : Fin 2048, x (ix2 r k) = x' (ix2 r' k)) (hv : v = v') :
    rowValue x v r = rowValue x' v' r' := by
  subst hv
  unfold rowValue dotRow dotRowSq
  simp only [hx]

/-- The whole [8192, 1] result: entry (r, 0) is the pairwise term of row r. -/
def result (x : (⟨2, ![8192, 2048]⟩ : Shape).Idx → EReal) (v : (⟨2, ![2048, 64]⟩ : Shape).Idx → EReal) :
    (⟨2, ![8192, 1]⟩ : Shape).Idx → EReal :=
  fun i => rowValue x v (i 0)

end Pairwise

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.BlockValue.lean ====
/-
  What the kernel's body computes from one block.

  The body loads a [1024, 2048] block of x and the whole [2048, 64] array v, forms the two matrix products
  (block @ v, and the entrywise squares' product) into zero accumulators, subtracts the second from the square of the
  first, sums each row over its 64 columns, turns the [1024] vector of row sums into a [1024, 1] column, and scales it
  by the half-word.  Read at entry (p, 0) of the column this is the pairwise term of row p of the block:
  a matrix product into a zero accumulator is the plain sum over the contracted positions, a row sum with a zero start is
  the plain sum over the columns, and a column cast reads the vector at the row's number.
-/
import proofs.«122763_j19035295056197_1_alg».proof.Proof.Gen.KernelIdeal.Skeleton
import proofs.«122763_j19035295056197_1_alg».proof.Proof.Pairwise
import proofs.«122763_j19035295056197_1_alg».proof.Proof.LibPlainDot
import Idealize.ShloMosaic.PureOps.Ideal.Laws
import Idealize.ShloMosaic.Lib.Pipeline.Value

noncomputable section

namespace Cert.KernelIdeal.BlockValue

open Cert.KernelIdeal Cert.KernelIdeal.Gen Idealize.ShloMosaic Idealize.ShloMosaic.ValueIdx

/-- A vector of `a` entries cast to an [a, 1] column reads, at (p, u), the vector at p: both sit at row-major
    position p. -/
theorem shapeCast_col_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The body's matrix product into the zero accumulator, at (p, q): the sum over the 2048 contracted positions. -/
theorem product_apply (l : FVec Ideal S1024x2048 .f32) (r : FVec Ideal S2048x64 .f32) (p : Fin 1024) (q : Fin 64) :
    matmul dot_S1024x2048_S2048x64_S1024x64_1_0_0_1_n_n none l r (constant (F := Ideal) S1024x64 .f32 0x00000000#32) (ix2 p q)
      = ∑ k : Fin 2048, l (ix2 p k) * r (ix2 k q) := by
  simp only [matmul]
  rw [Ideal.matmul_constant_zero_apply]
  exact PlainDot.sum_eq dot_S1024x2048_S2048x64_S1024x64_1_0_0_1_n_n rfl rfl rfl rfl rfl rfl l r p q

/-- The body's row sum with the zero start, at row p: the sum over the 64 columns. -/
theorem rowSum_apply (src : FVec Ideal S1024x64 .f32) (p : Fin 1024) :
    multiReduction .add [1] S1024 src 0x00000000#32 reduces_S1024x64_S1024 (.inl rfl) rfl (ix1 p)
      = ∑ q : Fin 64, src (ix2 p q) := by
  refine (Ideal.multiReduction_add_single src 0x00000000#32 reduces_S1024x64_S1024 (.inl rfl) rfl (ix1 p)).trans ?_
  exact Finset.sum_congr rfl fun q _ => congrArg src (funext fun a => Fin.ext (by
    match a with
    | ⟨0, _⟩ => rfl
    | ⟨1, _⟩ => rfl))

/-- The body's stored value at (p, u) is the pairwise term of row p of the loaded block against the loaded v. -/
theorem pay_apply (x0 : FVec Ideal S1024x2048 .f32) (x1 : FVec Ideal S2048x64 .f32) (p : Fin 1024) (u : Fin 1) :
    k0_pay1 (F := Ideal) x0 x1 (ix2 p u) = Pairwise.rowValue x0 x1 p := by
  simp only [k0_pay1]
  rw [mulf_apply, broadcast_apply, shapeCast_col_apply, rowSum_apply]
  unfold Pairwise.rowValue Pairwise.dotRow Pairwise.dotRowSq
  simp only [subf_apply, mulf_apply, product_apply]
  rfl

end Cert.KernelIdeal.BlockValue

end
-- ==== Proof.ArrayValue.lean ====
/-
  From the blocks to the whole result array.

  Grid point t stages rows 1024 t .. 1024 t + 1023 of x (all 2048 columns), the whole of v (its block index is (0, 0) at
  every point), and writes back rows 1024 t .. 1024 t + 1023 of the [8192, 1] result.  The body's value at row p of
  its block is the pairwise term of row p of the staged block of x (`BlockValue.pay_apply`), which is row 1024 t + p of
  x, and the pairwise term of a row reads only that row (`Pairwise.rowValue_congr`): so what point t writes back is
  block t of `Pairwise.result x v`.  The eight blocks tile the 8192 rows (row r lies in block r / 1024), so after the run
  the result array is `Pairwise.result x v` everywhere.
-/
import proofs.«122763_j19035295056197_1_alg».proof.Proof.Gen.KernelIdeal.Value
import proofs.«122763_j19035295056197_1_alg».proof.Proof.BlockValue

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin_eq : (![0, 0] : Fin 2 → Nat) = fun _ => 0 := funext fun a => by fin_cases a <;> rfl

/-- The block indices over the grid: x's row block moves with the result's, which is the point's number; every
    column block index is 0, and v's block is always the first. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- One block against the whole arrays, over plain vectors: if the loaded block `x0` is rows 1024 b .. of `X`, the
    loaded `x1` is `W`, and entry `i` of the result sits in row 1024 b + (row of j), then the body's stored value at `j`
    is the result's entry `i`. -/
theorem stored_eq (X : FVec Ideal S8192x2048 .f32) (W : FVec Ideal S2048x64 .f32)
    (x0 : FVec Ideal S1024x2048 .f32) (x1 : FVec Ideal S2048x64 .f32) (b : Nat)
    (hx0 : ∀ (p : Fin 1024) (k : Fin 2048) (r : Fin 8192), r.val = b * 1024 + p.val → x0 (ix2 p k) = X (ix2 r k))
    (hx1 : x1 = W) (j : S1024x1.Idx) (i : S8192x1.Idx) (hi : (i 0).val = b * 1024 + (j 0).val) :
    k0_pay1 (F := Ideal) x0 x1 j = Pairwise.result X W i := by
  obtain ⟨p, u, rfl⟩ : ∃ (p : Fin 1024) (u : Fin 1), j = ix2 p u := ⟨j 0, j 1, eq_ix2 j⟩
  rw [BlockValue.pay_apply]
  unfold Pairwise.result
  exact Pairwise.rowValue_congr x0 X x1 W p (i 0) (fun k => hx0 p k (i 0) hi) hx1

/-- What point `t` writes back is block `t` of the pairwise result of the two argument arrays. -/
theorem flushed_eq (c : Dev nD) (t : Fin cfg0.N) :
    (dats m 0 c).flushed 2 t
      = ((cfg0.win 2).blk t).view.read (Elt Ideal) (Pairwise.result (V m c main_arg0) (V m c main_arg1)) := by
  rw [Value.flushed2]
  unfold out0_2
  rw [View.canon_unit_zero origin_eq]
  simp only [View.ld_unit_zero (S := S1024x2048) origin_eq, View.ld_unit_zero (S := S2048x64) origin_eq]
  obtain ⟨e0, e1, e2, e3, e4, e5⟩ := index_facts t
  funext j
  refine stored_eq (V m c main_arg0) (V m c main_arg1) (iblk m c 0 t) (iblk m c 1 t) (win0_2.index t (0 : Fin 2)) ?_ ?_ j
    (((cfg0.win 2).blk t).view.emb j) ?_
  · intro p k r hr
    show V m c main_arg0 (((cfg0.win 0).blk t).view.emb (ix2 p k)) = V m c main_arg0 (ix2 r k)
    refine congrArg (V m c main_arg0) (funext fun a => Fin.ext ?_)
    match a with
    | ⟨0, _⟩ => show win0_0.index t (0 : Fin 2) * 1024 + 1 * p.val = r.val; omega
    | ⟨1, _⟩ => show win0_0.index t (1 : Fin 2) * 2048 + 1 * k.val = k.val; omega
  · funext y
    show V m c main_arg1 (((cfg0.win 1).blk t).view.emb y) = V m c main_arg1 y
    refine congrArg (V m c main_arg1) (funext fun a => Fin.ext ?_)
    match a with
    | ⟨0, _⟩ => show win0_1.index t (0 : Fin 2) * 2048 + 1 * (y 0).val = (y 0).val; omega
    | ⟨1, _⟩ => show win0_1.index t (1 : Fin 2) * 64 + 1 * (y 1).val = (y 1).val; omega
  · show win0_2.index t (0 : Fin 2) * 1024 + 1 * (j 0).val = win0_2.index t (0 : Fin 2) * 1024 + (j 0).val
    omega

/-- An entry of the result array is in point `t`'s block iff each coordinate is in the block's range on its axis. -/
theorem mem_block (t : Fin cfg0.N) (i : S8192x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v0).slice (win0_2.rect t)).set ↔ _
  rw [View.set_slice_whole, Rect.mem_set_unit]
  exact Iff.rfl

/-- Every entry (r, 0) of the result array lies in the block of point r / 1024, which writes back. -/
theorem covered (i : S8192x1.Idx) :
    ∃ t : Fin cfg0.N, (cfg0.win 2).flush t = true ∧ i ∈ ((cfg0.win 2).blk t).view.set := by
  have hN : grid0.N = 8 := N_0
  have hi0 : (i 0).val < 8192 := (i 0).isLt
  have hi1 : (i 1).val < 1 := (i 1).isLt
  let t : Fin cfg0.N := ⟨(i 0).val / 1024, by show (i 0).val / 1024 < grid0.N; omega⟩
  obtain ⟨e0, e1, e2, e3, e4, e5⟩ := index_facts t
  have ht : t.val = (i 0).val / 1024 := rfl
  refine ⟨t, flush0_2 t, ?_⟩
  rw [mem_block]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1 ≤ (i 1).val ∧ (i 1).val < win0_2.index t (1 : Fin 2) * 1 + 1
    omega

/-- After the run the result array is the pairwise result of the argument arrays as launched. -/
theorem final (c : Dev nD) :
    (dats m 0 c).arrAt 2 cfg0.N
      = Pairwise.result (m ((c : Thread nD τ).loc main_arg0)) (m ((c : Thread nD τ).loc main_arg1)) :=
  (dats m 0 c).arrAt_eq_of_cover 2 (Pairwise.result (V m c main_arg0) (V m c main_arg1))
    (fun t _ => flushed_eq m c t) covered

/-- The kernel's run: every weakly fair execution ends with the result array at the pairwise result of the arguments, the
    arguments unchanged. -/
theorem run : θ_run defs (onTc (τ := τ) (main (F := Ideal))) ⟨m, fun _ => 0, ρ⟩ fun r => ∀ c : Dev nD,
      r.2.mem ((c : Thread nD τ).loc main_v0)
        = Pairwise.result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefPairwise.lean ====
/-
  The reference computes the pairwise term.

  Read one host operation at a time, entry (r, 0) of the reference's result is the half-word times
  ( 0 + sum over the 64 columns q of ( d(r,q) * d(r,q) - e(r,q) ) ), where d = x @ v and e = (x*x) @ (v*v) are the two
  matrix products read as sums over the 2048 contracted positions.  The initial value of the column sum is the zero
  word, which denotes 0 and drops out; what is left is `Pairwise.result` letter for letter.
-/
import proofs.«122763_j19035295056197_1_alg».proof.Proof.Gen.ReferenceIdeal.Read
import proofs.«122763_j19035295056197_1_alg».proof.Proof.Pairwise

noncomputable section

namespace Cert.ReferenceIdeal.RefPairwise

open Cert.ReferenceIdeal Cert.ReferenceIdeal.Gen Cert.ReferenceIdeal.Read Idealize.ShloMosaic Idealize.ShloMosaic.ValueIdx

/-- The left operand of either product, at result entry (r, q) and contracted position k, is read at (r, k). -/
theorem lidx_eq (i : S8192x1.Idx) (q : Fin 64) (k : Fin 2048) :
    lidx_main_v0 (idx_main_v6 (idx_main_v7 i) q) k = ix2 (i 0) k :=
  funext fun a => Fin.ext (by match a with | ⟨0, _⟩ => rfl | ⟨1, _⟩ => rfl)

/-- The right operand is read at (k, q). -/
theorem ridx_eq (i : S8192x1.Idx) (q : Fin 64) (k : Fin 2048) :
    ridx_main_v0 (idx_main_v6 (idx_main_v7 i) q) k = ix2 k q :=
  funext fun a => Fin.ext (by match a with | ⟨0, _⟩ => rfl | ⟨1, _⟩ => rfl)

theorem lidx3_eq (i : S8192x1.Idx) (q : Fin 64) (k : Fin 2048) :
    lidx_main_v3 (idx_main_v6 (idx_main_v7 i) q) k = ix2 (i 0) k :=
  funext fun a => Fin.ext (by match a with | ⟨0, _⟩ => rfl | ⟨1, _⟩ => rfl)

theorem ridx3_eq (i : S8192x1.Idx) (q : Fin 64) (k : Fin 2048) :
    ridx_main_v3 (idx_main_v6 (idx_main_v7 i) q) k = ix2 k q :=
  funext fun a => Fin.ext (by match a with | ⟨0, _⟩ => rfl | ⟨1, _⟩ => rfl)

/-- The reference's last stage is the pairwise term of the two argument arrays. -/
theorem stage_eq (x : (⟨S8192x2048, .f32⟩ : BufTy).Contents (Elt Ideal)) (v : (⟨S2048x64, .f32⟩ : BufTy).Contents (Elt Ideal)) :
    val_main_v9 (F := Ideal) x v = Pairwise.result x v := by
  funext i
  rw [val_main_v9_apply, val_main_v8_apply, val_main_cst_0_apply, val_main_v7_apply, val_main_v6_apply, val_main_cst_apply]
  simp only [val_main_v5_apply, val_main_v4_apply, val_main_v3_apply, val_main_v0_apply, val_main_v1_apply, val_main_v2_apply,
    lidx_eq, ridx_eq, lidx3_eq, ridx3_eq, Ideal.mulf_def, Ideal.subf_def, Ideal.ofBits_def, Ideal.ofBits_zero_f32, zero_add]
  rfl

end Cert.ReferenceIdeal.RefPairwise

end
-- ==== Proof.lean ====
/-
  The kernel computes the second-order interaction term of a factorization machine,
      out(r, 0) = h * sum_q ( (x @ v)(r,q)^2 - ((x*x) @ (v*v))(r,q) ),      h the half-word,
  over x : [8192, 2048] and v : [2048, 64], eight blocks of 1024 rows at a time; the reference computes the same
  expression with whole-array operations.  Over the extended reals the two are one function of the arguments, operation
  for operation: a matrix product into a zero accumulator and the host's product are the same sum over the 2048
  contracted positions, the kernel's row sum and the host's sum from the zero word are the same sum over the 64 columns,
  and the half-word is the same word on both sides.  No algebraic law joins the two sides beyond dropping the two
  zeros, so finiteness of the inputs is never used.

  `Pairwise.result` is that function.  The kernel's result array ends at it (`ArrayValue.run`: each grid point writes
  block t of it, and the blocks tile the rows), and the reference's last stage is it (`RefPairwise.stage_eq`).
  The three frames are the programs' runs with the values dropped; the idealization rewrote nothing, so
  `preserves` has nothing to state.
-/
import proofs.«122763_j19035295056197_1_alg».proof.Defs
import proofs.«122763_j19035295056197_1_alg».proof.Proof.Gen.Kernel
import proofs.«122763_j19035295056197_1_alg».proof.Proof.Gen.Kernel.Skeleton
import proofs.«122763_j19035295056197_1_alg».proof.Proof.Gen.Kernel.Launch
import proofs.«122763_j19035295056197_1_alg».proof.Proof.Gen.Kernel.Points
import proofs.«122763_j19035295056197_1_alg».proof.Proof.Gen.Kernel.Frame
import proofs.«122763_j19035295056197_1_alg».proof.Proof.Gen.KernelIdeal
import proofs.«122763_j19035295056197_1_alg».proof.Proof.Gen.KernelIdeal.Skeleton
import proofs.«122763_j19035295056197_1_alg».proof.Proof.Gen.KernelIdeal.Launch
import proofs.«122763_j19035295056197_1_alg».proof.Proof.Gen.KernelIdeal.Points
import proofs.«122763_j19035295056197_1_alg».proof.Proof.Gen.KernelIdeal.Frame
import proofs.«122763_j19035295056197_1_alg».proof.Proof.Gen.ReferenceIdeal
import proofs.«122763_j19035295056197_1_alg».proof.Proof.Gen.Pre_finite_inputs
import proofs.«122763_j19035295056197_1_alg».proof.Proof.Gen.KernelIdeal.Value
import proofs.«122763_j19035295056197_1_alg».proof.Proof.Gen.ReferenceIdeal.Run
import proofs.«122763_j19035295056197_1_alg».proof.Proof.Gen.ReferenceIdeal.Read
import proofs.«122763_j19035295056197_1_alg».proof.Proof.ArrayValue
import proofs.«122763_j19035295056197_1_alg».proof.Proof.RefPairwise
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the pairwise term of the arguments, which agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v9_eq _ _).trans (Cert.ReferenceIdeal.RefPairwise.stage_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
